-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S10000x1 : S_.BroadcastsInDim S10000x1 (![] : Fin 0 → Fin S10000x1.rank)
  reducesTo_S10000x1_S_d0_1 : S10000x1.ReducesTo [0, 1] S_

variable [Facts]

def fn_part1 {F : FTy → Type} [FloatOps F] (main_arg4 : FVec F S10000x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S10000x1 .f32 := Host.absf main_arg4
  let main_cst_6 : FVec F S_ .f32 := constant S_ .f32 0x7F800000#32
  let main_v20 : FVec F S10000x1 .f32 := broadcastInDim S10000x1 ![] bcast_S_S10000x1 main_cst_6
  let main_v21 : IVec S10000x1 1 := cmpf .olt main_v19 main_v20
  let main_c_7 : IVec S_ 1 := constantI S_ 1 1#1
  let main_v22 : IVec S_ 1 := (fun x v => Host.reduce IntOp.andi x v reducesTo_S10000x1_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S10000x10000 .f32) (main_arg3 : FVec F S128x128 .f32) (main_arg4 : FVec F S10000x1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S400x10000 : Shape := ⟨2, ![400, 10000]⟩
abbrev S400x1 : Shape := ⟨2, ![400, 1]⟩
abbrev S400x128 : Shape := ⟨2, ![400, 128]⟩

abbrev nBuf : Space → Nat
  | .hbm => 8
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x1, .f32⟩
  | .hbm, ⟨5, _⟩ => ⟨S10000x128, .bf16⟩
  | .hbm, ⟨6, _⟩ => ⟨S10000x128, .bf16⟩
  | .hbm, ⟨7, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S400x10000, .f32⟩
  | .local _ .vmem, ⟨4, _⟩ => ⟨S400x10000, .f32⟩
  | .local _ .vmem, ⟨5, _⟩ => ⟨S10000x128, .bf16⟩
  | .local _ .vmem, ⟨6, _⟩ => ⟨S400x1, .f32⟩
  | .local _ .vmem, ⟨7, _⟩ => ⟨S400x1, .f32⟩
  | .local _ .vmem, ⟨8, _⟩ => ⟨S400x128, .bf16⟩
  | .local _ .vmem, ⟨9, _⟩ => ⟨S400x128, .bf16⟩
  | .local _ .vmem, ⟨10, _⟩ => ⟨S400x10000, .f32⟩
  | .local _ .vmem, ⟨11, _⟩ => ⟨S400x10000, .f32⟩
  | .local _ .vmem, ⟨12, _⟩ => ⟨S10000x128, .bf16⟩
  | .local _ .vmem, ⟨13, _⟩ => ⟨S400x128, .f32⟩
  | .local _ .vmem, ⟨14, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x1_S400x1_0_0 : ∀ a, (![0, 0] : Fin 2 → Nat) a + S400x1.size a ≤ S400x1.size a
  h_S400x1 : 0 < S400x1.numel
  broadcasts_S400x1_S400x128 : S400x1.Broadcasts S400x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x1.size a ≤ S10000x1.size a
  hwx1_2 : ∀ i : grid1.Coords, EltTy.bits .f32 = 32 ∨ (Rect.block (s := S10000x1) S400x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .bf16 = 32 ∨ (Rect.block (s := S10000x128) S400x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S400x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S10000x1 : Shape := ⟨2, ![10000, 1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S10000x1, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩

abbrev nD : Nat := 1
abbrev τ : Topo := Topo.v7x

variable {F : FTy → Type} [FloatOps F]

class Facts₀ : Prop where
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.LibSpectralSpec.lean ====
/-
  A two-stage spectral filter at the extended reals, index by index. Node features are projected by a weight matrix,
  carried into a transform domain by one dense operator, scaled row by row by a learned per-node coefficient, carried
  back by a second dense operator and clamped at zero:

      proj X W (p, q)      = ∑ⱼ X(p, j) · W(j, q)
      scaled P κ Y (p, q)  = κ(p, 0) · ∑ₖ P(p, k) · Y(k, q)
      recon Q T (p, q)     = max (∑ₖ Q(p, k) · T(k, q)) 0
      filter               = recon Q (scaled P κ (proj X W)).

  Every sum is a plain row-by-column sum over the whole contracted axis and the coefficient multiplies from the left
  on both sides, so no regrouping is ever needed and nothing here asks the entries to be finite. Three readings: the
  host's three `dot_general`s, a multiply by the spread coefficient column and a `maximum` against a broadcast zero ARE
  `filter`; a matrix-unit product of a BLOCK OF ROWS of an operator with a whole array, scaled by the same rows of the
  coefficient column, is `scaled` read at those rows; the same product clamped is `recon` read at those rows.
-/
import Idealize.ShloMosaic.PureOps.Ideal
import Idealize.ShloMosaic.PureOps.Ideal.Laws
import Idealize.ShloMosaic.Lib.ValueIdx
import proofs.«153606_g53661321397055_cont_9to1c4b_10_2_alg».proof.Proof.LibSageSpec

noncomputable section

open scoped BigOperators

namespace Idealize.ShloMosaic.SpectralSpec

open Idealize.ShloMosaic Idealize.ShloMosaic.ValueIdx Idealize.ShloMosaic.SageSpec

/-- The clamp at zero, the zero spelt as the word both programs print. -/
def clamp0 (s : EReal) : EReal := max s (Ideal.ofBits .f32 0x00000000#32)

/-- The projected features: features times weights. -/
def proj {n f h : Nat} (X : Mat n f) (W : Mat f h) : Mat n h := fun j => rowDot X W (j 0) (j 1)

/-- The forward transform of `Y`, row `p` scaled by the coefficient of node `p`. -/
def scaled {n h : Nat} (P : Mat n n) (κ : Mat n 1) (Y : Mat n h) : Mat n h :=
  fun j => κ (ix2 (j 0) (0 : Fin 1)) * rowDot P Y (j 0) (j 1)

/-- The inverse transform of `T`, clamped at zero. -/
def recon {n h : Nat} (Q : Mat n n) (T : Mat n h) : Mat n h := fun j => clamp0 (rowDot Q T (j 0) (j 1))

/-- The whole filter. -/
def filter {n f h : Nat} (X : Mat n f) (P Q : Mat n n) (W : Mat f h) (κ : Mat n 1) : Mat n h :=
  recon Q (scaled P κ (proj X W))

/-- A row-by-column sum only reads one row of its left operand and one column of its right operand, entry by entry. -/
theorem rowDot_congr {n n' k m : Nat} {a : Mat n k} {a' : Mat n' k} {w w' : Mat k m} (p : Fin n) (p' : Fin n') (q : Fin m)
    (ha : ∀ j : Fin k, a (ix2 p j) = a' (ix2 p' j)) (hw : ∀ j : Fin k, w (ix2 j q) = w' (ix2 j q)) :
    rowDot a w p q = rowDot a' w' p' q := by
  unfold rowDot
  exact Finset.sum_congr rfl fun j _ => by rw [ha j, hw j]

/-- The host's program as printed — project, transform, multiply by the spread coefficients, transform back, `maximum`
    against the broadcast zero word — is `filter`. -/
theorem host_filter {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (X : FVec Ideal ⟨2, ![n, f]⟩ .f32) (P Q : FVec Ideal ⟨2, ![n, n]⟩ .f32)
    (W : FVec Ideal ⟨2, ![f, h]⟩ .f32) (κ : Mat n 1)
    (K : FVec Ideal ⟨2, ![n, h]⟩ .f32) (hK : ∀ i, K i = κ (ix2 (i 0) (0 : Fin 1)))
    (Z : FVec Ideal ⟨2, ![n, h]⟩ .f32) (hZ : ∀ i, Z i = Ideal.ofBits .f32 0x00000000#32) :
    maximumf (Host.dotGeneral d2 none Q (mulf K (Host.dotGeneral d2 none P (Host.dotGeneral d1 none X W)))) Z
      = filter (fun i => X i) (fun i => P i) (fun i => Q i) (fun i => W i) κ := by
  funext i
  rw [maximumf_apply, hZ, dotGeneral_at h2]
  unfold filter recon clamp0
  refine congrArg (fun s => max s _) (rowDot_congr _ _ _ (fun _ => rfl) fun j => ?_)
  show mulf K (Host.dotGeneral d2 none P (Host.dotGeneral d1 none X W)) (ix2 j (i 1)) = _
  rw [mulf_apply, hK, dotGeneral_at h2]
  unfold scaled
  refine congrArg (fun s => κ (ix2 j (0 : Fin 1)) * s) (rowDot_congr _ _ _ (fun _ => rfl) fun l => ?_)
  exact dotGeneral_at h1 none X W (ix2 l (i 1))

/-- The projection on the matrix unit: the whole product into a zero accumulator, read at an index. -/
theorem matmul_proj {n f h : Nat} {φ₁ φ₂ : FTy} {d : DotDims ⟨2, ![n, f]⟩ ⟨2, ![f, h]⟩ ⟨2, ![n, h]⟩} (hd : PlainDot d)
    (X : Mat n f) (W : Mat f h) (a : FVec Ideal ⟨2, ![n, f]⟩ φ₁) (w : FVec Ideal ⟨2, ![f, h]⟩ φ₂)
    (ha : ∀ i, a i = X i) (hw : ∀ i, w i = W i) (j : (⟨2, ![n, h]⟩ : Shape).Idx) :
    FloatOps.matmul d none a w (constant ⟨2, ![n, h]⟩ .f32 0x00000000#32) j = proj X W j := by
  rw [matmul_zero_at hd]
  unfold proj
  exact rowDot_congr _ _ _ (fun _ => ha _) fun _ => hw _

/-- A block of `b` rows of the forward operator (row `r` of the block is row `row r` of the array) times the whole
    array `Y` on the matrix unit into a zero accumulator, multiplied from the left by the same rows of the coefficient
    column spread over the columns, read at (r, q), is `scaled` at (row r, q). -/
theorem block_scaled {n h b : Nat} {φ₁ φ₂ : FTy} {d : DotDims ⟨2, ![b, n]⟩ ⟨2, ![n, h]⟩ ⟨2, ![b, h]⟩} (hd : PlainDot d)
    (P : Mat n n) (κ : Mat n 1) (Y : Mat n h) (a : FVec Ideal ⟨2, ![b, n]⟩ φ₁) (row : Fin b → Fin n)
    (ha : ∀ (r : Fin b) (k : Fin n), a (ix2 r k) = P (ix2 (row r) k))
    (H : FVec Ideal ⟨2, ![n, h]⟩ φ₂) (hH : ∀ j, H j = Y j)
    (Kb : FVec Ideal ⟨2, ![b, h]⟩ .f32) (r : Fin b) (q : Fin h) (hK : Kb (ix2 r q) = κ (ix2 (row r) (0 : Fin 1))) :
    mulf Kb (FloatOps.matmul d none a H (constant ⟨2, ![b, h]⟩ .f32 0x00000000#32)) (ix2 r q) = scaled P κ Y (ix2 (row r) q) := by
  rw [mulf_apply, hK, matmul_zero_at hd]
  unfold scaled
  exact congrArg (fun s => κ (ix2 (row r) (0 : Fin 1)) * s) (rowDot_congr r (row r) q (fun k => ha r k) fun k => hH _)

/-- A block of `b` rows of the inverse operator times the whole array `T` on the matrix unit into a zero accumulator,
    clamped against the splat zero word, read at (r, q), is `recon` at (row r, q). -/
theorem block_recon {n h b : Nat} {φ₁ φ₂ : FTy} {d : DotDims ⟨2, ![b, n]⟩ ⟨2, ![n, h]⟩ ⟨2, ![b, h]⟩} (hd : PlainDot d)
    (Q : Mat n n) (T : Mat n h) (a : FVec Ideal ⟨2, ![b, n]⟩ φ₁) (row : Fin b → Fin n)
    (ha : ∀ (r : Fin b) (k : Fin n), a (ix2 r k) = Q (ix2 (row r) k))
    (H : FVec Ideal ⟨2, ![n, h]⟩ φ₂) (hH : ∀ j, H j = T j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = recon Q T (ix2 (row r) q) := by
  rw [maximumf_apply, hZ, matmul_zero_at hd]
  unfold recon clamp0
  exact congrArg (fun s => max s _) (rowDot_congr r (row r) q (fun k => ha r k) fun k => hH _)

end Idealize.ShloMosaic.SpectralSpec

end
-- ==== Proof.LibGcnSpec.lean ====
/-
  One layer of a graph convolution at the extended reals, index by index: the features times the weights, the
  adjacency times that product, and a clamp at zero,

      layer A X W (p, q) = max (∑ₖ A(p, k) · (∑ⱼ X(k, j) · W(j, q))) 0,

  every sum a plain row-by-column sum over the contracted axis (no regrouping, so nothing here needs the entries to be
  finite). Three readings of it: the host's two `dot_general`s and `maximum` against a broadcast zero ARE this
  function; a matrix-unit product of a BLOCK OF ROWS of the adjacency with the whole hidden array, clamped, is this
  function read at those rows; and the hidden array a kernel keeps (one matrix-unit product into a zero accumulator)
  is the inner sum. A record of dimension numbers enters only through the six facts of a plain product, which any
  record listing "contract axis 1 of the left with axis 0 of the right, no batch axes" has.
-/
import Idealize.ShloMosaic.PureOps.Ideal
import Idealize.ShloMosaic.PureOps.Ideal.Laws
import Idealize.ShloMosaic.Lib.ValueIdx
import proofs.«153606_g53661321397055_cont_9to1c4b_10_2_alg».proof.Proof.LibSageSpec

noncomputable section

open scoped BigOperators

namespace Idealize.ShloMosaic.GcnSpec

open Idealize.ShloMosaic Idealize.ShloMosaic.ValueIdx Idealize.ShloMosaic.SageSpec

/-! ## Plain dimension numbers -/

/-- A record whose lists are the plain ones — contract axis 1 of the left operand with axis 0 of the right, the other
    two axes kept in order, no batch axis — reads its operands at (row, κ) and (κ, column), whatever the extents. -/
theorem plainDot_of_lists {n k m : Nat} (d : DotDims ⟨2, ![n, k]⟩ ⟨2, ![k, m]⟩ ⟨2, ![n, m]⟩)
    (hlc : d.lhsContracting = [1]) (hrc : d.rhsContracting = [0]) (hln : d.lhsNonContracting = [0])
    (hrn : d.rhsNonContracting = [1]) (hlb : d.lhsBatch = []) (hrb : d.rhsBatch = []) : PlainDot d := by
  obtain ⟨lc, rc, ln, rn, lb, rb, wf⟩ := d
  dsimp only at hlc hrc hln hrn hlb hrb
  subst hlc hrc hln hrn hlb hrb
  refine ⟨rfl, fun _ => rfl, fun i q => ?_, fun i q _ => DotDims.lhsIdx_val_of_single _ rfl i q,
    fun i q _ => DotDims.rhsIdx_val_of_single _ rfl i q, fun i q => ?_⟩
  · unfold DotDims.lhsIdx
    rw [dif_neg List.not_mem_nil, dif_pos (List.mem_singleton.mpr rfl)]
    rfl
  · unfold DotDims.rhsIdx
    rw [dif_neg List.not_mem_nil, dif_pos (List.mem_singleton.mpr rfl)]
    rfl

/-! ## The layer -/

/-- The clamp at zero, the zero spelt as the word both programs print. -/
def clamp0 (s : EReal) : EReal := max s (Ideal.ofBits .f32 0x00000000#32)

/-- The hidden array: features times weights. -/
def hidden {n f h : Nat} (X : Mat n f) (W : Mat f h) : Mat n h := fun j => rowDot X W (j 0) (j 1)

/-- One layer: the adjacency times the hidden array, clamped at zero. -/
def layer {n f h : Nat} (A : Mat n n) (X : Mat n f) (W : Mat f h) : Mat n h :=
  fun i => clamp0 (rowDot A (hidden X W) (i 0) (i 1))

/-- A matrix-unit product into a zero accumulator, under a same-shape cast, is the hidden array. -/
theorem matmul_zero_eq_hidden {n f h : Nat} {d : DotDims ⟨2, ![n, f]⟩ ⟨2, ![f, h]⟩ ⟨2, ![n, h]⟩} (hd : PlainDot d)
    (prec : Option ContractPrecision) (X : FVec Ideal ⟨2, ![n, f]⟩ .f32) (W : FVec Ideal ⟨2, ![f, h]⟩ .f32) :
    FloatOps.matmul d prec X W (constant ⟨2, ![n, h]⟩ .f32 0x00000000#32) = hidden (fun i => X i) (fun i => W i) :=
  funext fun j => matmul_zero_at hd prec X W j

/-- The host's layer as printed — two `dot_general`s, then `maximum` against the broadcast zero word — is `layer`. -/
theorem host_layer {n f h : Nat} {d1 : DotDims ⟨2, ![n, f]⟩ ⟨2, ![f, h]⟩ ⟨2, ![n, h]⟩} {d2 : DotDims ⟨2, ![n, n]⟩ ⟨2, ![n, h]⟩ ⟨2, ![n, h]⟩}
    (h1 : PlainDot d1) (h2 : PlainDot d2) (A : FVec Ideal ⟨2, ![n, n]⟩ .f32) (X : FVec Ideal ⟨2, ![n, f]⟩ .f32) (W : FVec Ideal ⟨2, ![f, h]⟩ .f32)
    (Z : FVec Ideal ⟨2, ![n, h]⟩ .f32) (hZ : ∀ i, Z i = Ideal.ofBits .f32 0x00000000#32) :
    maximumf (Host.dotGeneral d2 none A (Host.dotGeneral d1 none X W)) Z = layer (fun i => A i) (fun i => X i) (fun i => W i) := by
  funext i
  rw [maximumf_apply, hZ, dotGeneral_at h2]
  unfold layer clamp0 rowDot
  refine congrArg (fun s => max s _) (Finset.sum_congr rfl fun κ _ => ?_)
  exact congrArg (fun s => A (ix2 (i 0) κ) * s) (dotGeneral_at h1 none X W (ix2 κ (i 1)))

/-- The kernel's block: `b` rows of the adjacency (row `r` of the block is row `row r` of the array) times the whole
    hidden array on the matrix unit into a zero accumulator, clamped against the splat zero word, read at (r, q), is
    the layer at (row r, q). -/
theorem block_layer {n f h b : Nat} {d : DotDims ⟨2, ![b, n]⟩ ⟨2, ![n, h]⟩ ⟨2, ![b, h]⟩} (hd : PlainDot d)
    (A : Mat n n) (X : Mat n f) (W : Mat f h) (a : FVec Ideal ⟨2, ![b, n]⟩ .f32) (row : Fin b → Fin n)
    (ha : ∀ (r : Fin b) (κ : Fin n), a (ix2 r κ) = A (ix2 (row r) κ))
    (H : FVec Ideal ⟨2, ![n, h]⟩ .f32) (hH : ∀ j, H j = hidden X W j)
    (Z : FVec Ideal ⟨2, ![b, h]⟩ .f32) (hZ : ∀ i, Z i = Ideal.ofBits .f32 0x00000000#32) (r : Fin b) (q : Fin h) :
    maximumf (FloatOps.matmul d none a H (constant ⟨2, ![b, h]⟩ .f32 0x00000000#32)) Z (ix2 r q) = layer A X W (ix2 (row r) q) := by
  rw [maximumf_apply, hZ, matmul_zero_at hd]
  unfold layer clamp0 rowDot
  refine congrArg (fun s => max s _) (Finset.sum_congr rfl fun κ _ => ?_)
  show a (ix2 r κ) * H (ix2 κ q) = A (ix2 (row r) κ) * hidden X W (ix2 κ q)
  rw [ha, hH]

end Idealize.ShloMosaic.GcnSpec

end
-- ==== Proof.Projection.lean ====
/-
  The first launch: the projection. It has no grid: its one point stages the whole feature array and the whole weight
  matrix and writes the whole result, at (p, q) the sum over j of the features at (p, j) times the weights at (j, q). After
  the launch the result array is `proj X W` of the two arrays the launch found, whatever those arrays are.
-/
import proofs.«153606_g53661321397055_cont_9to1c4b_10_2_alg».proof.Proof.Gen.KernelIdeal.Frame
import proofs.«153606_g53661321397055_cont_9to1c4b_10_2_alg».proof.Proof.LibSpectralSpec
import proofs.«153606_g53661321397055_cont_9to1c4b_10_2_alg».proof.Proof.LibGcnSpec
import Idealize.ShloMosaic.Lib.Pipeline.Value

set_option maxRecDepth 16384

noncomputable section

namespace Cert.KernelIdeal.Projection

open Cert.KernelIdeal Cert.KernelIdeal.Gen
open Idealize.ShloMosaic Idealize.ShloMosaic.TcCoe Idealize.ShloMosaic.ValueIdx
open Idealize.ShloMosaic.SageSpec Idealize.ShloMosaic.SpectralSpec
open Idealize.ShloMosaic.Pipeline (Dat)

theorem zero_offsets : (![0, 0] : Fin 2 → Nat) = fun _ => 0 := funext fun a => by fin_cases a <;> rfl

/-- The matrix unit's dimension numbers are the plain rows-by-columns ones. -/
theorem plain : PlainDot dot_S10000x128_S128x128_S10000x128_1_0_0_1_n_n :=
  GcnSpec.plainDot_of_lists _ rfl rfl rfl rfl rfl rfl

/-- What the body stores, at an index, when its operands hold `X` and `W`: the projection there. -/
theorem stored_at (X : Mat 10000 128) (W : Mat 128 128)
    (x0 : Vec Ideal S10000x128 .f32) (x1 : Vec Ideal S128x128 .f32)
    (h0 : ∀ i, x0 i = X i) (h1 : ∀ i, x1 i = W i) (j : S10000x128.Idx) :
    k0_pay1 x0 x1 j = proj X W j := by
  unfold k0_pay1
  exact matmul_proj plain X W (truncf .bf16 x0 bitsLt_bf16_f32) (truncf .bf16 x1 bitsLt_bf16_f32) h0 h1 j

/-! ## From the one block to the array -/

section Array

-- the arrays as the launch finds them
variable (V : (c : Dev nD) → (b : Ref sig .tc) → Buf (Elt Ideal) ((c : Thread nD τ).loc b))

/-- Every window's block index is zero on both axes: each block is its whole array. -/
theorem block_indices : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the one point writes back is the projection of the arrays the launch found (its block is the whole array). -/
theorem flushed_eq (c : Dev nD) (t : Fin cfg0.N) :
    (dat0 V c).flushed 2 t
      = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x128) zero_offsets]
  obtain ⟨e00, e01, e10, e11, e20, e21⟩ := block_indices t
  funext j
  show k0_pay1 (iblk0 V c 0 t) (iblk0 V c 1 t) j
    = proj (V c main_arg0) (V c main_arg3) (((cfg0.win 2).blk t).view.emb j)
  refine (stored_at (V c main_arg0) (V c main_arg3) (iblk0 V c 0 t) (iblk0 V c 1 t) ?_ ?_ j).trans ?_
  · intro i
    show V c main_arg0 (((cfg0.win 0).blk t).view.emb i) = V c main_arg0 i
    refine congrArg (V c main_arg0) (funext fun a => Fin.ext ?_)
    match a with
    | ⟨0, _⟩ => show win0_0.index t (0 : Fin 2) * 10000 + 1 * (i 0).val = (i 0).val; omega
    | ⟨1, _⟩ => show win0_0.index t (1 : Fin 2) * 128 + 1 * (i 1).val = (i 1).val; omega
  · intro i
    show V c main_arg3 (((cfg0.win 1).blk t).view.emb i) = V c main_arg3 i
    refine congrArg (V c main_arg3) (funext fun a => Fin.ext ?_)
    match a with
    | ⟨0, _⟩ => show win0_1.index t (0 : Fin 2) * 128 + 1 * (i 0).val = (i 0).val; omega
    | ⟨1, _⟩ => show win0_1.index t (1 : Fin 2) * 128 + 1 * (i 1).val = (i 1).val; omega
  · refine congrArg (proj (V c main_arg0) (V c main_arg3)) (funext fun a => Fin.ext ?_)
    match a with
    | ⟨0, _⟩ => show (j 0).val = win0_2.index t (0 : Fin 2) * 10000 + 1 * (j 0).val; omega
    | ⟨1, _⟩ => show (j 1).val = win0_2.index t (1 : Fin 2) * 128 + 1 * (j 1).val; omega

/-- An index of the result array is in the block iff each coordinate is in the block's range on its axis. -/
theorem mem_block (t : Fin cfg0.N) (i : S10000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- The one block is the whole array. -/
theorem covered (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨-, -, -, -, e20, e21⟩ := block_indices t0_0
  refine ⟨t0_0, flush0_2 t0_0, ?_⟩
  rw [mem_block]
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 128 ≤ (i 1).val ∧ (i 1).val < win0_2.index t0_0 (1 : Fin 2) * 128 + 128; omega

/-- After the launch its result array is the projection of the arrays it found. -/
theorem result (c : Dev nD) :
    (dat0 V c).arrAt 2 cfg0.N = proj (V c main_arg0) (V c main_arg3) :=
  (dat0 V c).arrAt_eq_of_cover 2 _ (fun t _ => flushed_eq V c t) covered

end Array

end Cert.KernelIdeal.Projection

end
-- ==== Proof.LibKeepdims.lean ====
/-
  Column ("keepdims") layouts read at an index, and a row sum read at an index, generic in the sizes.

  A row-wise reduction that keeps its axis produces an `[a]` vector viewed as an `[a, 1]` column; the column is then
  viewed as a `[1, a]` row, or spread over the columns of an `[a, b]` matrix.  Each of these reads ONE entry of
  its operand at each index of its result:
    · `[a] → [a, 1]` at (i, u) reads the operand at i;
    · `[a, 1] → [1, a]` at (u, i) reads the operand at (i, 0);
    · `[a, 1] → [a, b]` (a broadcast) at (i, j) reads the operand at (i, 0);
  and a sum of an `[a, b]` matrix along its second axis, read at i over the extended reals, is the sum over the b
  columns of the entries of row i.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the operand at `(i, 0)`: both have row-major
    position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Over the extended reals, the sum of an `[a, b]` matrix along its second axis, read at `i`, is the sum over the `b`
    columns of row `i`'s entries (the accumulator word being the sum's neutral element). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun d => Fin.ext (by
      match d with
      | ⟨0, _⟩ => rfl
      | ⟨1, _⟩ => rfl)))

end Cert.LibKeepdims

end
-- ==== Proof.ForwardTransform.lean ====
/-
  The second launch: the forward transform, scaled. Its grid has 25 points; point t stages rows 400·t … 400·t + 399 of the
  forward operator and of the coefficient column, and the whole projected array, and writes rows 400·t … 400·t + 399 of its
  result: at (r, q) the coefficient of node 400·t + r times the sum over k of the operator at (400·t + r, k) times the
  projected array at (k, q). The 25 blocks tile the 10000 rows, so after the launch the result array is
  `scaled P κ Y` of the three arrays the launch found (P the operator, κ the coefficients, Y the projected array),
  whatever those arrays are.
-/
import proofs.«153606_g53661321397055_cont_9to1c4b_10_2_alg».proof.Proof.Gen.KernelIdeal.Frame
import proofs.«153606_g53661321397055_cont_9to1c4b_10_2_alg».proof.Proof.LibSpectralSpec
import proofs.«153606_g53661321397055_cont_9to1c4b_10_2_alg».proof.Proof.LibGcnSpec
import proofs.«153606_g53661321397055_cont_9to1c4b_10_2_alg».proof.Proof.LibKeepdims
import Idealize.ShloMosaic.Lib.Pipeline.Value

set_option maxRecDepth 16384

noncomputable section

namespace Cert.KernelIdeal.Forward

open Cert.KernelIdeal Cert.KernelIdeal.Gen
open Idealize.ShloMosaic Idealize.ShloMosaic.TcCoe Idealize.ShloMosaic.ValueIdx
open Idealize.ShloMosaic.SageSpec Idealize.ShloMosaic.SpectralSpec
open Idealize.ShloMosaic.Pipeline (Dat)

theorem zero_offsets : (![0, 0] : Fin 2 → Nat) = fun _ => 0 := funext fun a => by fin_cases a <;> rfl

/-- The matrix unit's dimension numbers are the plain rows-by-columns ones. -/
theorem plain : PlainDot dot_S400x10000_S10000x128_S400x128_1_0_0_1_n_n :=
  GcnSpec.plainDot_of_lists _ rfl rfl rfl rfl rfl rfl

/-- What the body stores, at (r, q), when its operator block holds rows `row r` of `P`, its coefficient block the same rows of
    `κ`, and its third operand is `Y`: the scaled transform at (row r, q). -/
theorem stored_at (P : Mat 10000 10000) (κ : Mat 10000 1) (Y : Mat 10000 128)
    (x0 : Vec Ideal S400x10000 .f32) (x1 : Vec Ideal S10000x128 .bf16) (x2 : Vec Ideal S400x1 .f32) (row : Fin 400 → Fin 10000)
    (h0 : ∀ (r : Fin 400) (k : Fin 10000), x0 (ix2 r k) = P (ix2 (row r) k)) (h1 : ∀ j, x1 j = Y j)
    (h2 : ∀ r : Fin 400, x2 (ix2 r (0 : Fin 1)) = κ (ix2 (row r) (0 : Fin 1))) (r : Fin 400) (q : Fin 128) :
    k1_pay1 x0 x1 x2 (ix2 r q) = scaled P κ Y (ix2 (row r) q) := by
  unfold k1_pay1
  exact block_scaled plain P κ Y (truncf .bf16 x0 bitsLt_bf16_f32) row h0
    (shapeCast S10000x128 x1 shapeCasts_S10000x128_S10000x128) (fun j => by rw [shapeCast_self]; exact h1 j)
    (broadcastTo S400x128 x2 broadcasts_S400x1_S400x128) r q
    ((Cert.LibKeepdims.broadcastTo_a1_ab_apply x2 broadcasts_S400x1_S400x128 r q).trans (h2 r))

/-! ## From the blocks to the array -/

section Array

-- the arrays as the launch finds them
variable (V : (c : Dev nD) → (b : Ref sig .tc) → Buf (Elt Ideal) ((c : Thread nD τ).loc b))

/-- The block index of every window at every point: the operator, the coefficient column and the result move down their
    rows with the point; the projected array stays. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `r` of point `t`'s blocks is row 400·t + r of the arrays. -/
def rowOf (t : Fin cfg1.N) (r : Fin 400) : Fin 10000 :=
  ⟨t.val * 400 + r.val, by have h : t.val < 25 := lt_of_lt_of_eq t.isLt N_1; have := r.isLt; omega⟩

/-- What point `t` writes back is block `t` of the scaled transform of the arrays the launch found. -/
theorem flushed_eq (c : Dev nD) (t : Fin cfg1.N) :
    (dat1 V c).flushed 3 t
      = ((cfg1.win 3).blk t).view.read (Elt Ideal) (scaled (V c main_arg1) (V c main_arg4) (V c main_v0)) := by
  show (cfg1.win 3).cut (grid1.coords t) ((dat1 V c).after 3 t) = _
  rw [after1_3]
  unfold out1_3
  rw [View.canon_unit_zero zero_offsets]
  simp only [View.ld_unit_zero (S := S400x10000) zero_offsets, View.ld_unit_zero (S := S10000x128) zero_offsets,
    View.ld_unit_zero (S := S400x1) zero_offsets]
  obtain ⟨e00, e01, e10, e11, e20, e21, e30, e31⟩ := block_indices t
  funext j
  show k1_pay1 (iblk1 V c 0 t) (iblk1 V c 1 t) (iblk1 V c 2 t) j
    = scaled (V c main_arg1) (V c main_arg4) (V c main_v0) (((cfg1.win 3).blk t).view.emb j)
  refine (congrArg (k1_pay1 (iblk1 V c 0 t) (iblk1 V c 1 t) (iblk1 V c 2 t)) (eq_ix2 j)).trans ?_
  refine (stored_at (V c main_arg1) (V c main_arg4) (V c main_v0) (iblk1 V c 0 t) (iblk1 V c 1 t) (iblk1 V c 2 t)
    (rowOf t) ?_ ?_ ?_ (j 0) (j 1)).trans ?_
  · intro r k
    show V c main_arg1 (((cfg1.win 0).blk t).view.emb (ix2 r k)) = V c main_arg1 (ix2 (rowOf t r) k)
    refine congrArg (V c main_arg1) (funext fun a => Fin.ext ?_)
    match a with
    | ⟨0, _⟩ => show win1_0.index t (0 : Fin 2) * 400 + 1 * r.val = t.val * 400 + r.val; omega
    | ⟨1, _⟩ => show win1_0.index t (1 : Fin 2) * 10000 + 1 * k.val = k.val; omega
  · intro i
    show V c main_v0 (((cfg1.win 1).blk t).view.emb i) = V c main_v0 i
    refine congrArg (V c main_v0) (funext fun a => Fin.ext ?_)
    match a with
    | ⟨0, _⟩ => show win1_1.index t (0 : Fin 2) * 10000 + 1 * (i 0).val = (i 0).val; omega
    | ⟨1, _⟩ => show win1_1.index t (1 : Fin 2) * 128 + 1 * (i 1).val = (i 1).val; omega
  · intro r
    show V c main_arg4 (((cfg1.win 2).blk t).view.emb (ix2 r (0 : Fin 1))) = V c main_arg4 (ix2 (rowOf t r) (0 : Fin 1))
    refine congrArg (V c main_arg4) (funext fun a => Fin.ext ?_)
    match a with
    | ⟨0, _⟩ => show win1_2.index t (0 : Fin 2) * 400 + 1 * r.val = t.val * 400 + r.val; omega
    | ⟨1, _⟩ => show win1_2.index t (1 : Fin 2) * 1 + 1 * 0 = 0; omega
  · refine congrArg (scaled (V c main_arg1) (V c main_arg4) (V c main_v0)) (funext fun a => Fin.ext ?_)
    match a with
    | ⟨0, _⟩ => show t.val * 400 + (j 0).val = win1_3.index t (0 : Fin 2) * 400 + 1 * (j 0).val; omega
    | ⟨1, _⟩ => show (j 1).val = win1_3.index t (1 : Fin 2) * 128 + 1 * (j 1).val; omega

/-- An index of the result array is in point `t`'s block iff its row is one of the block's 400 rows (and its column any). -/
theorem mem_block (t : Fin cfg1.N) (i : S10000x128.Idx) :
    i ∈ ((cfg1.win 3).blk t).view.set ↔ ∀ a : Fin 2, win1_3.index t a * S400x128.size a ≤ (i a).val
      ∧ (i a).val < win1_3.index t a * S400x128.size a + S400x128.size a := by
  show i ∈ ((View.whole main_v1).slice (win1_3.rect t)).set ↔ _
  rw [View.set_slice_whole, Rect.mem_set_unit]
  exact Iff.rfl

/-- The 25 blocks of 400 rows tile the 10000 rows: row `p` is in the block of point `p / 400`. -/
theorem covered (i : S10000x128.Idx) :
    ∃ t : Fin cfg1.N, (cfg1.win 3).flush t = true ∧ i ∈ ((cfg1.win 3).blk t).view.set := by
  have hi0 : (i 0).val < 10000 := (i 0).isLt
  have hi1 : (i 1).val < 128 := (i 1).isLt
  let t : Fin cfg1.N := ⟨(i 0).val / 400, by rw [show cfg1.N = 25 from N_1]; omega⟩
  obtain ⟨-, -, -, -, -, -, e30, e31⟩ := block_indices t
  have ht : t.val = (i 0).val / 400 := rfl
  refine ⟨t, flush1_3 t, ?_⟩
  rw [mem_block]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 128 ≤ (i 1).val ∧ (i 1).val < win1_3.index t (1 : Fin 2) * 128 + 128; omega

/-- After the launch its result array is the scaled transform of the arrays it found. -/
theorem result (c : Dev nD) :
    (dat1 V c).arrAt 3 cfg1.N = scaled (V c main_arg1) (V c main_arg4) (V c main_v0) :=
  (dat1 V c).arrAt_eq_of_cover 3 _ (fun t _ => flushed_eq V c t) covered

end Array

end Cert.KernelIdeal.Forward

end
-- ==== Proof.InverseTransform.lean ====
/-
  The third launch: the inverse transform, clamped at zero. Its grid has 25 points; point t stages rows 400·t … 400·t + 399 of
  the inverse operator and the whole scaled array, and writes rows 400·t … 400·t + 399 of the result: at (r, q) the larger of
  zero and the sum over k of the operator at (400·t + r, k) times the scaled array at (k, q). The 25 blocks tile the 10000
  rows, so after the launch the result array is `recon Q T` of the two arrays the launch found (Q the operator, T the scaled
  array), whatever those arrays are.
-/
import proofs.«153606_g53661321397055_cont_9to1c4b_10_2_alg».proof.Proof.Gen.KernelIdeal.Frame
import proofs.«153606_g53661321397055_cont_9to1c4b_10_2_alg».proof.Proof.LibSpectralSpec
import proofs.«153606_g53661321397055_cont_9to1c4b_10_2_alg».proof.Proof.LibGcnSpec
import Idealize.ShloMosaic.Lib.Pipeline.Value

set_option maxRecDepth 16384

noncomputable section

namespace Cert.KernelIdeal.Inverse

open Cert.KernelIdeal Cert.KernelIdeal.Gen
open Idealize.ShloMosaic Idealize.ShloMosaic.TcCoe Idealize.ShloMosaic.ValueIdx
open Idealize.ShloMosaic.SageSpec Idealize.ShloMosaic.SpectralSpec
open Idealize.ShloMosaic.Pipeline (Dat)

theorem zero_offsets : (![0, 0] : Fin 2 → Nat) = fun _ => 0 := funext fun a => by fin_cases a <;> rfl

/-- The matrix unit's dimension numbers are the plain rows-by-columns ones. -/
theorem plain : PlainDot dot_S400x10000_S10000x128_S400x128_1_0_0_1_n_n :=
  GcnSpec.plainDot_of_lists _ rfl rfl rfl rfl rfl rfl

/-- What the body stores, at (r, q), when its operator block holds rows `row r` of `Q` and its other operand is `T`: the
    clamped inverse transform at (row r, q). -/
theorem stored_at (Q : Mat 10000 10000) (T : Mat 10000 128)
    (x0 : Vec Ideal S400x10000 .f32) (x1 : Vec Ideal S10000x128 .bf16) (row : Fin 400 → Fin 10000)
    (h0 : ∀ (r : Fin 400) (k : Fin 10000), x0 (ix2 r k) = Q (ix2 (row r) k)) (h1 : ∀ j, x1 j = T j)
    (r : Fin 400) (q : Fin 128) :
    k2_pay1 x0 x1 (ix2 r q) = recon Q T (ix2 (row r) q) := by
  unfold k2_pay1
  exact block_recon plain Q T (truncf .bf16 x0 bitsLt_bf16_f32) row h0
    (shapeCast S10000x128 x1 shapeCasts_S10000x128_S10000x128) (fun j => by rw [shapeCast_self]; exact h1 j)
    (broadcast S400x128 (Scalar.ofBits .f32 0x00000000#32)) (fun _ => rfl) r q

/-! ## From the blocks to the array -/

section Array

-- the arrays as the launch finds them
variable (V : (c : Dev nD) → (b : Ref sig .tc) → Buf (Elt Ideal) ((c : Thread nD τ).loc b))

/-- The block index of every window at every point: the operator and the result move down their rows with the point; the
    scaled array stays. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `r` of point `t`'s blocks is row 400·t + r of the arrays. -/
def rowOf (t : Fin cfg2.N) (r : Fin 400) : Fin 10000 :=
  ⟨t.val * 400 + r.val, by have h : t.val < 25 := lt_of_lt_of_eq t.isLt N_2; have := r.isLt; omega⟩

/-- What point `t` writes back is block `t` of the clamped inverse transform of the arrays the launch found. -/
theorem flushed_eq (c : Dev nD) (t : Fin cfg2.N) :
    (dat2 V c).flushed 2 t
      = ((cfg2.win 2).blk t).view.read (Elt Ideal) (recon (V c main_arg2) (V c main_v1)) := by
  show (cfg2.win 2).cut (grid2.coords t) ((dat2 V c).after 2 t) = _
  rw [after2_2]
  unfold out2_2
  rw [View.canon_unit_zero zero_offsets]
  simp only [View.ld_unit_zero (S := S400x10000) zero_offsets, View.ld_unit_zero (S := S10000x128) zero_offsets]
  obtain ⟨e00, e01, e10, e11, e20, e21⟩ := block_indices t
  funext j
  show k2_pay1 (iblk2 V c 0 t) (iblk2 V c 1 t) j
    = recon (V c main_arg2) (V c main_v1) (((cfg2.win 2).blk t).view.emb j)
  refine (congrArg (k2_pay1 (iblk2 V c 0 t) (iblk2 V c 1 t)) (eq_ix2 j)).trans ?_
  refine (stored_at (V c main_arg2) (V c main_v1) (iblk2 V c 0 t) (iblk2 V c 1 t) (rowOf t) ?_ ?_ (j 0) (j 1)).trans ?_
  · intro r k
    show V c main_arg2 (((cfg2.win 0).blk t).view.emb (ix2 r k)) = V c main_arg2 (ix2 (rowOf t r) k)
    refine congrArg (V c main_arg2) (funext fun a => Fin.ext ?_)
    match a with
    | ⟨0, _⟩ => show win2_0.index t (0 : Fin 2) * 400 + 1 * r.val = t.val * 400 + r.val; omega
    | ⟨1, _⟩ => show win2_0.index t (1 : Fin 2) * 10000 + 1 * k.val = k.val; omega
  · intro i
    show V c main_v1 (((cfg2.win 1).blk t).view.emb i) = V c main_v1 i
    refine congrArg (V c main_v1) (funext fun a => Fin.ext ?_)
    match a with
    | ⟨0, _⟩ => show win2_1.index t (0 : Fin 2) * 10000 + 1 * (i 0).val = (i 0).val; omega
    | ⟨1, _⟩ => show win2_1.index t (1 : Fin 2) * 128 + 1 * (i 1).val = (i 1).val; omega
  · refine congrArg (recon (V c main_arg2) (V c main_v1)) (funext fun a => Fin.ext ?_)
    match a with
    | ⟨0, _⟩ => show t.val * 400 + (j 0).val = win2_2.index t (0 : Fin 2) * 400 + 1 * (j 0).val; omega
    | ⟨1, _⟩ => show (j 1).val = win2_2.index t (1 : Fin 2) * 128 + 1 * (j 1).val; omega

/-- An index of the result array is in point `t`'s block iff its row is one of the block's 400 rows (and its column any). -/
theorem mem_block (t : Fin cfg2.N) (i : S10000x128.Idx) :
    i ∈ ((cfg2.win 2).blk t).view.set ↔ ∀ a : Fin 2, win2_2.index t a * S400x128.size a ≤ (i a).val
      ∧ (i a).val < win2_2.index t a * S400x128.size a + S400x128.size a := by
  show i ∈ ((View.whole main_v2).slice (win2_2.rect t)).set ↔ _
  rw [View.set_slice_whole, Rect.mem_set_unit]
  exact Iff.rfl

/-- The 25 blocks of 400 rows tile the 10000 rows: row `p` is in the block of point `p / 400`. -/
theorem covered (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  let t : Fin cfg2.N := ⟨(i 0).val / 400, by rw [show cfg2.N = 25 from N_2]; omega⟩
  obtain ⟨-, -, -, -, e20, e21⟩ := block_indices t
  have ht : t.val = (i 0).val / 400 := rfl
  refine ⟨t, flush2_2 t, ?_⟩
  rw [mem_block]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 128 ≤ (i 1).val ∧ (i 1).val < win2_2.index t (1 : Fin 2) * 128 + 128; omega

/-- After the launch its result array is the clamped inverse transform of the arrays it found. -/
theorem result (c : Dev nD) :
    (dat2 V c).arrAt 2 cfg2.N = recon (V c main_arg2) (V c main_v1) :=
  (dat2 V c).arrAt_eq_of_cover 2 _ (fun t _ => flushed_eq V c t) covered

end Array

end Cert.KernelIdeal.Inverse

end
-- ==== Proof.KernelValue.lean ====
/-
  The three launches in sequence. Each launch leaves every array but its own result as it found it, so the arguments reach
  each launch as launched; the projection's result reaches the second launch, and the scaled transform reaches the third.
  Reading the buffers launch by launch, the result buffer ends holding the filter of the argument arrays.
-/
import proofs.«153606_g53661321397055_cont_9to1c4b_10_2_alg».proof.Proof.KernelRun
import proofs.«153606_g53661321397055_cont_9to1c4b_10_2_alg».proof.Proof.Projection
import proofs.«153606_g53661321397055_cont_9to1c4b_10_2_alg».proof.Proof.ForwardTransform
import proofs.«153606_g53661321397055_cont_9to1c4b_10_2_alg».proof.Proof.InverseTransform

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem
open Idealize.ShloMosaic.SageSpec Idealize.ShloMosaic.SpectralSpec

variable (m : (ℓ : Loc nD τ sig) → Buf (Elt Ideal) ℓ) (ρ : Dev nD → PrngReg)

/-- The projected array, as the second launch finds it. -/
theorem projected (c : Dev nD) :
    V1 m ρ c main_v0 = proj (m ((c : Thread nD τ).loc main_arg0)) (m ((c : Thread nD τ).loc main_arg3)) :=
  (W1_arr m ρ c 2).trans (Projection.result (V0 m ρ) c)

/-- The forward operator and the coefficient column, as the second launch finds them: as launched. -/
theorem forward_operator (c : Dev nD) : V1 m ρ c main_arg1 = m ((c : Thread nD τ).loc main_arg1) :=
  W1_of_ne m ρ c main_arg1 (by decide)
theorem coefficients (c : Dev nD) : V1 m ρ c main_arg4 = m ((c : Thread nD τ).loc main_arg4) :=
  W1_of_ne m ρ c main_arg4 (by decide)

/-- The scaled transform, as the third launch finds it. -/
theorem transformed (c : Dev nD) :
    V2 m ρ c main_v1 = scaled (m ((c : Thread nD τ).loc main_arg1)) (m ((c : Thread nD τ).loc main_arg4))
      (proj (m ((c : Thread nD τ).loc main_arg0)) (m ((c : Thread nD τ).loc main_arg3))) := by
  refine ((W2_arr m ρ c 3).trans (Forward.result (V1 m ρ) c)).trans ?_
  rw [forward_operator, coefficients, projected]

/-- The inverse operator, as the third launch finds it: as launched. -/
theorem inverse_operator (c : Dev nD) : V2 m ρ c main_arg2 = m ((c : Thread nD τ).loc main_arg2) :=
  (W2_of_ne m ρ c main_arg2 (by decide)).trans (W1_of_ne m ρ c main_arg2 (by decide))

/-- The result buffer after the third launch: the filter of the argument arrays. -/
theorem result_contents (c : Dev nD) :
    W3 m ρ c (Proc.devRef .tc main_v2)
      = filter (m ((c : Thread nD τ).loc main_arg0)) (m ((c : Thread nD τ).loc main_arg1)) (m ((c : Thread nD τ).loc main_arg2))
          (m ((c : Thread nD τ).loc main_arg3)) (m ((c : Thread nD τ).loc main_arg4)) := by
  refine ((W3_arr m ρ c 2).trans (Inverse.result (V2 m ρ) c)).trans ?_
  rw [inverse_operator, transformed]
  rfl

/-- Every weakly fair execution of the three launches ends with the result buffer at the filter of the argument arrays and
    the arguments unchanged. -/
theorem run : θ_run defs (onTc (τ := τ) (main (F := Ideal))) ⟨m, fun _ => 0, ρ⟩ (fun r => ∀ c : Dev nD,
      r.2.mem ((c.tc : Thread nD τ).loc main_v2)
        = filter (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_contents m ρ c), (h c).2⟩) (ValueRun.run_result m ρ)

end Cert.KernelIdeal.Whole

end
-- ==== Proof.ReferenceValue.lean ====
/-
  The reference's result, at the extended reals, is the filter of its arguments: its three `dot_general`s are plain
  rows-by-columns sums over the whole contracted axis, its `broadcast_in_dim` of the coefficient column reads, at (p, q), the
  column's one entry of row p, its multiply has the spread coefficients on the left, and its `maximum` is against the zero
  word spread over the array.
-/
import proofs.«153606_g53661321397055_cont_9to1c4b_10_2_alg».proof.Proof.Gen.ReferenceIdeal.Run
import proofs.«153606_g53661321397055_cont_9to1c4b_10_2_alg».proof.Proof.Gen.ReferenceIdeal.Read
import proofs.«153606_g53661321397055_cont_9to1c4b_10_2_alg».proof.Proof.LibSpectralSpec
import proofs.«153606_g53661321397055_cont_9to1c4b_10_2_alg».proof.Proof.LibGcnSpec

noncomputable section

namespace Cert.ReferenceIdeal.RefValue

open Cert.ReferenceIdeal Cert.ReferenceIdeal.Gen
open Idealize.ShloMosaic Idealize.ShloMosaic.TcCoe Idealize.ShloMosaic.ValueIdx
open Idealize.ShloMosaic.SageSpec Idealize.ShloMosaic.SpectralSpec

/-- Both records of dimension numbers are the plain rows-by-columns ones. -/
theorem plain_proj : PlainDot dot_S10000x128_S128x128_S10000x128_1_0_0_1_n_n :=
  GcnSpec.plainDot_of_lists _ rfl rfl rfl rfl rfl rfl
theorem plain_transform : PlainDot dot_S10000x10000_S10000x128_S10000x128_1_0_0_1_n_n :=
  GcnSpec.plainDot_of_lists _ rfl rfl rfl rfl rfl rfl

/-- The coefficient column spread over the 128 columns reads, at (p, q), the column's entry of row p. -/
theorem spread_at (k : FVec Ideal S10000x1 .f32) (i : S10000x128.Idx) :
    broadcastInDim S10000x128 ![0, 1] bcast_S10000x1_S10000x128_0_1 k i = k (ix2 (i 0) (0 : Fin 1)) :=
  (Read.val_main_v2_apply (F := Ideal) k i).trans (congrArg k (funext fun a => Fin.ext (by
    match a with
    | ⟨0, _⟩ => rfl
    | ⟨1, _⟩ => rfl)))

/-- The zero word spread over the array reads the zero word everywhere. -/
theorem zeros_at (i : S10000x128.Idx) :
    broadcastInDim S10000x128 ![] bcast_S_S10000x128 (constant (F := Ideal) S_ .f32 0x00000000#32) i = Ideal.ofBits .f32 0x00000000#32 :=
  (Read.val_main_call0_v0_apply (F := Ideal) i).trans rfl

/-- The term the reference's run ends at is the filter of the argument arrays. -/
theorem result_eq (x : FVec Ideal S10000x128 .f32) (p q : FVec Ideal S10000x10000 .f32) (w : FVec Ideal S128x128 .f32)
    (k : FVec Ideal S10000x1 .f32) :
    maximumf (Host.dotGeneral dot_S10000x10000_S10000x128_S10000x128_1_0_0_1_n_n none q
        (mulf (broadcastInDim S10000x128 ![0, 1] bcast_S10000x1_S10000x128_0_1 k)
          (Host.dotGeneral dot_S10000x10000_S10000x128_S10000x128_1_0_0_1_n_n none p
            (Host.dotGeneral dot_S10000x128_S128x128_S10000x128_1_0_0_1_n_n none x w))))
      (broadcastInDim S10000x128 ![] bcast_S_S10000x128 (constant S_ .f32 0x00000000#32))
    = filter x p q w k :=
  host_filter plain_proj plain_transform x p q w k _ (spread_at k) _ zeros_at

end Cert.ReferenceIdeal.RefValue

end
-- ==== Proof.lean ====
/-
  A spectral filter on a graph of 10000 nodes with 128 features each: the features are projected by a 128 × 128 weight
  matrix, carried into a transform domain by a dense 10000 × 10000 operator, scaled node by node by a learned coefficient,
  carried back by a second dense operator and clamped at zero,

      Y(l, q) = ∑ⱼ X(l, j) · W(j, q),   T(k, q) = κ(k, 0) · ∑ₗ P(k, l) · Y(l, q),   out(p, q) = max (∑ₖ Q(p, k) · T(k, q)) 0.

  The kernel computes it in three launches — the projection in one block; the scaled forward transform and the clamped
  inverse transform each 400 rows at a time over 25 grid points, the whole right-hand array resident — and keeps the two
  intermediate arrays in a narrower float format; the reference computes it with three whole products. Over the extended
  reals a change of float format is the identity and a product on the matrix unit into a zero accumulator is the same
  row-by-column sum as the host's; the kernel contracts the whole axis in each block (no regrouping of any sum) and both
  programs multiply by the coefficient from the left, so the two results are the same extended real at every index, with no
  appeal to the inputs being finite. The idealization rewrote nothing, so that conjunct is trivial; the three frames are
  the generated ones (the reference's is its run with the result dropped).
-/
import proofs.«153606_g53661321397055_cont_9to1c4b_10_2_alg».proof.Defs
import proofs.«153606_g53661321397055_cont_9to1c4b_10_2_alg».proof.Proof.Gen.Kernel
import proofs.«153606_g53661321397055_cont_9to1c4b_10_2_alg».proof.Proof.Gen.Kernel.Skeleton
import proofs.«153606_g53661321397055_cont_9to1c4b_10_2_alg».proof.Proof.Gen.Kernel.Launch
import proofs.«153606_g53661321397055_cont_9to1c4b_10_2_alg».proof.Proof.Gen.Kernel.Points
import proofs.«153606_g53661321397055_cont_9to1c4b_10_2_alg».proof.Proof.Gen.Kernel.Frame
import proofs.«153606_g53661321397055_cont_9to1c4b_10_2_alg».proof.Proof.Gen.KernelIdeal
import proofs.«153606_g53661321397055_cont_9to1c4b_10_2_alg».proof.Proof.Gen.KernelIdeal.Skeleton
import proofs.«153606_g53661321397055_cont_9to1c4b_10_2_alg».proof.Proof.Gen.KernelIdeal.Launch
import proofs.«153606_g53661321397055_cont_9to1c4b_10_2_alg».proof.Proof.Gen.KernelIdeal.Points
import proofs.«153606_g53661321397055_cont_9to1c4b_10_2_alg».proof.Proof.Gen.KernelIdeal.Frame
import proofs.«153606_g53661321397055_cont_9to1c4b_10_2_alg».proof.Proof.Gen.ReferenceIdeal
import proofs.«153606_g53661321397055_cont_9to1c4b_10_2_alg».proof.Proof.Gen.Pre_finite_inputs
import proofs.«153606_g53661321397055_cont_9to1c4b_10_2_alg».proof.Proof.Gen.ReferenceIdeal.Run
import proofs.«153606_g53661321397055_cont_9to1c4b_10_2_alg».proof.Proof.Gen.ReferenceIdeal.Read
import proofs.«153606_g53661321397055_cont_9to1c4b_10_2_alg».proof.Proof.KernelValue
import proofs.«153606_g53661321397055_cont_9to1c4b_10_2_alg».proof.Proof.ReferenceValue
import Idealize.ShloMosaic.Adequacy
import Idealize.ShloMosaic.Init

noncomputable section

namespace Cert.Proof

open Idealize.ShloMosaic Idealize.SL.Sem

/-- The word-level kernel and its idealization run, fault-free, and leave their arguments as launched. -/
theorem frame_kernel : Cert.frame_Kernel := fun m ρ _ => Cert.Kernel.Gen.frame m ρ
theorem frame_kernel_ideal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end at the filter of their argument arrays, and the argument arrays agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
